-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x1x512x512 : Shape := ⟨4, ![32, 1, 512, 512]⟩
abbrev S16384x512 : Shape := ⟨2, ![16384, 512]⟩
abbrev S1x1 : Shape := ⟨2, ![1, 1]⟩
abbrev S1024x512 : Shape := ⟨2, ![1024, 512]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 6
  | .vmem => 8
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S16384x512, .f32⟩
  | .hbm, ⟨3, _⟩ => ⟨S16384x512, .f32⟩
  | .hbm, ⟨4, _⟩ => ⟨S1x1, .f32⟩
  | .hbm, ⟨5, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v43 : BitVec 1 := Scalar.cmpi .eq arg0 c15_i32
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S32x1x512x512_S16384x512 : S32x1x512x512.ShapeCasts S16384x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  natLt_1_32 : 1 < 32
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x1x512x512 : Shape := ⟨4, ![32, 1, 512, 512]⟩
abbrev S8388608 : Shape := ⟨1, ![8388608]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S8388608, .f32⟩
  | .hbm, ⟨3, _⟩ => ⟨S8388608, .f32⟩
  | .hbm, ⟨4, _⟩ => ⟨S_, .f32⟩
  | .hbm, ⟨5, _⟩ => ⟨S8388608, .f32⟩
  | .hbm, ⟨6, _⟩ => ⟨S8388608, .i1⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .f32⟩
  | .hbm, ⟨12, _⟩ => ⟨S_, .f32⟩
  | .hbm, ⟨13, _⟩ => ⟨S8388608, .f32⟩
  | .hbm, ⟨14, _⟩ => ⟨S_, .f32⟩
  | .hbm, ⟨15, _⟩ => ⟨S_, .f32⟩
  | .hbm, ⟨16, _⟩ => ⟨S8388608, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  shapeCasts_S32x1x512x512_S8388608 : S32x1x512x512.ShapeCasts S8388608
  bcast_S_S8388608 : S_.BroadcastsInDim S8388608 (![] : Fin 0 → Fin S8388608.rank)
  reducesTo_S8388608_S_d0 : S8388608.ReducesTo [0] S_
  h_S_ : 0 < S_.numel

variable [Facts₀]

class Facts : Prop extends Facts₀ where

variable [Facts]
-- ==== Proof.Pieces.lean ====
/-
  What one grid step of the kernel leaves behind, as values.

  The kernel keeps three running sums (of v_p * v_t, of v_p * v_p and of v_t * v_t) in three one-entry scratch
  buffers. At the first step it stores zero into each and then adds the step's block total; at every later step it
  adds the block total to what the step before left; at the last step it also writes the loss, computed from the
  three sums it has just updated, into the output's one entry. Here each of those stores is read back as the
  arithmetic term it stores: the update terms `k0_pay12` (first sum), `k0_pay1 ∘ k0_pay13` (second),
  `k0_pay2 ∘ k0_pay11` (third) of the two input blocks and the previous contents, the zero terms
  `k0_pay4`, `k0_pay5`, `k0_pay6`, and the loss term `k0_pay3` of the three updated sums.
-/
import proofs.«142630_j81956565942483_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]
variable (c : Dev nD) (i : grid0.Coords)
  (a1 : Memref sig .tc .vmem S1024x512 .f32) (h1 : a1.IsWhole)
  (a2 : Memref sig .tc .vmem S1024x512 .f32) (h2 : a2.IsWhole)
  (a3 : Memref sig .tc .vmem S1x1 .f32) (h3 : a3.IsWhole)
  (a4 : Memref sig .tc .vmem S1x1 .f32) (h4 : a4.IsWhole)
  (a5 : Memref sig .tc .vmem S1x1 .f32) (h5 : a5.IsWhole)
  (a6 : Memref sig .tc .vmem S1x1 .f32) (h6 : a6.IsWhole)
  (x0 x1 : Vec F S1024x512 .f32) (xs0 xs1 xs2 : Vec F S1x1 .f32)

/-- Every access of the body starts at the origin of its buffer. -/
theorem hz : (![0, 0] : Fin 2 → Nat) = fun _ => 0 := funext fun a => by fin_cases a <;> rfl

/-! ## A middle step: each sum is the previous contents plus the block's total -/

theorem mid_ii (hc0 : ¬cond0_0 i) (hc1 : ¬cond0_1 i) :
    sout0_B_0 c i a1 h1 a2 h2 a3 h3 a4 h4 a5 h5 a6 h6 hc0 hc1 x0 x1 xs0 xs1 xs2 = k0_pay12 x0 x1 xs0 := by
  unfold sout0_B_0
  rw [View.read_writes_eq_canon _ _ _ (scover0_B_0 c i a1 h1 a2 h2 a3 h3 a4 h4 a5 h5 a6 h6 hc0 hc1 x0 x1 xs0 xs1 xs2)]
  unfold kernelRun0_B
  dsimp only
  sl_unfold_words
  rw [View.canon_unit_zero hz]
  simp only [View.readAt_eq_ld, h1.read_unread, h2.read_unread, h4.read_unread, View.ld_unit_zero (S := S1024x512) hz,
    View.ld_unit_zero (S := S1x1) hz]

theorem mid_aa (hc0 : ¬cond0_0 i) (hc1 : ¬cond0_1 i) :
    sout0_B_1 c i a1 h1 a2 h2 a3 h3 a4 h4 a5 h5 a6 h6 hc0 hc1 x0 x1 xs0 xs1 xs2 = k0_pay1 (k0_pay13 x0 x1 xs1) := by
  unfold sout0_B_1
  rw [View.read_writes_eq_canon _ _ _ (scover0_B_1 c i a1 h1 a2 h2 a3 h3 a4 h4 a5 h5 a6 h6 hc0 hc1 x0 x1 xs0 xs1 xs2)]
  unfold kernelRun0_B
  dsimp only
  sl_unfold_words
  rw [View.canon_unit_zero hz]
  simp only [View.readAt_eq_ld, h1.read_unread, h2.read_unread, h5.read_unread, View.ld_unit_zero (S := S1024x512) hz,
    View.ld_unit_zero (S := S1x1) hz]

theorem mid_bb (hc0 : ¬cond0_0 i) (hc1 : ¬cond0_1 i) :
    sout0_B_2 c i a1 h1 a2 h2 a3 h3 a4 h4 a5 h5 a6 h6 hc0 hc1 x0 x1 xs0 xs1 xs2 = k0_pay2 (k0_pay11 x1) xs2 := by
  unfold sout0_B_2
  rw [View.read_writes_eq_canon _ _ _ (scover0_B_2 c i a1 h1 a2 h2 a3 h3 a4 h4 a5 h5 a6 h6 hc0 hc1 x0 x1 xs0 xs1 xs2)]
  unfold kernelRun0_B
  dsimp only
  sl_unfold_words
  rw [View.canon_unit_zero hz]
  simp only [View.readAt_eq_ld, h2.read_unread, h6.read_unread, View.ld_unit_zero (S := S1024x512) hz,
    View.ld_unit_zero (S := S1x1) hz]

/-! ## The last step: the same three updates, and the loss of the three updated sums in the output -/

theorem last_ii (hc0 : ¬cond0_0 i) (hc1 : cond0_1 i) :
    sout0_C_0 c i a1 h1 a2 h2 a3 h3 a4 h4 a5 h5 a6 h6 hc0 hc1 x0 x1 xs0 xs1 xs2 = k0_pay12 x0 x1 xs0 := by
  unfold sout0_C_0
  rw [View.read_writes_eq_canon _ _ _ (scover0_C_0 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h1.read_unread, h2.read_unread, h4.read_unread, View.ld_unit_zero (S := S1024x512) hz,
    View.ld_unit_zero (S := S1x1) hz]

theorem last_aa (hc0 : ¬cond0_0 i) (hc1 : cond0_1 i) :
    sout0_C_1 c i a1 h1 a2 h2 a3 h3 a4 h4 a5 h5 a6 h6 hc0 hc1 x0 x1 xs0 xs1 xs2 = k0_pay1 (k0_pay13 x0 x1 xs1) := by
  unfold sout0_C_1
  rw [View.read_writes_eq_canon _ _ _ (scover0_C_1 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h1.read_unread, h2.read_unread, h5.read_unread, View.ld_unit_zero (S := S1024x512) hz,
    View.ld_unit_zero (S := S1x1) hz]

theorem last_bb (hc0 : ¬cond0_0 i) (hc1 : cond0_1 i) :
    sout0_C_2 c i a1 h1 a2 h2 a3 h3 a4 h4 a5 h5 a6 h6 hc0 hc1 x0 x1 xs0 xs1 xs2 = k0_pay2 (k0_pay11 x1) xs2 := by
  unfold sout0_C_2
  rw [View.read_writes_eq_canon _ _ _ (scover0_C_2 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h2.read_unread, h6.read_unread, View.ld_unit_zero (S := S1024x512) hz,
    View.ld_unit_zero (S := S1x1) hz]

theorem last_out (hc0 : ¬cond0_0 i) (hc1 : cond0_1 i) :
    out0_C_2 c i a1 h1 a2 h2 a3 h3 a4 h4 a5 h5 a6 h6 hc0 hc1 x0 x1 xs0 xs1 xs2
      = k0_pay3 (k0_pay12 x0 x1 xs0) (k0_pay1 (k0_pay13 x0 x1 xs1)) (k0_pay2 (k0_pay11 x1) xs2) := by
  unfold out0_C_2
  rw [View.read_writes_eq_canon _ _ _ (cover0_C_2 c i a1 h1 a2 h2 a3 h3 a4 h4 a5 h5 a6 h6 hc0 hc1 x0 x1 xs0 xs1 xs2)]
  unfold kernelRun0_C
  dsimp only
  sl_unfold_words
  rw [View.canon_unit_zero hz]
  simp only [View.readAt_eq_ld, h1.read_unread, h2.read_unread, h4.read_unread, h5.read_unread, h6.read_unread,
    View.readCov_unit_zero (S := S1x1) _ hz, View.ld_unit_zero (S := S1024x512) hz, View.ld_unit_zero (S := S1x1) hz]

/-! ## The first step: each sum is reset to zero, read back, and the block's total added -/

theorem first_ii (hc0 : cond0_0 i) (hc1 : ¬cond0_1 i) :
    sout0_A_0 c i a1 h1 a2 h2 a3 h3 a4 h4 a5 h5 a6 h6 hc0 hc1 x0 x1 = k0_pay12 x0 x1 k0_pay4 := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x512) hz,
    View.ld_unit_zero (S := S1x1) hz]

theorem first_aa (hc0 : cond0_0 i) (hc1 : ¬cond0_1 i) :
    sout0_A_1 c i a1 h1 a2 h2 a3 h3 a4 h4 a5 h5 a6 h6 hc0 hc1 x0 x1 = k0_pay1 (k0_pay13 x0 x1 k0_pay5) := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1024x512) hz,
    View.ld_unit_zero (S := S1x1) hz]

theorem first_bb (hc0 : cond0_0 i) (hc1 : ¬cond0_1 i) :
    sout0_A_2 c i a1 h1 a2 h2 a3 h3 a4 h4 a5 h5 a6 h6 hc0 hc1 x0 x1 = k0_pay2 (k0_pay11 x1) k0_pay6 := by
  unfold sout0_A_2
  rw [View.read_writes_eq_canon _ _ _ (scover0_A_2 c i a1 h1 a2 h2 a3 h3 a4 h4 a5 h5 a6 h6 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, View.ld_unit_zero (S := S1024x512) hz,
    View.ld_unit_zero (S := S1x1) hz]

end Cert.KernelIdeal.Pieces

end
-- ==== Proof.Spec.lean ====
/-
  The masked dice loss over the extended reals, and the sum laws that let a sum taken block by block meet the
  same sum taken at once.

  For a prediction entry p and a target entry t, the target is VALID when t > -1; the mask is 1 on a valid entry
  and 0 elsewhere. With v_p = p * mask and v_t = t * mask, the loss of two arrays is

      1 - (2 * I + 1) / (A + B + 1),   I = sum of v_p * v_t,  A = sum of v_p * v_p,  B = sum of v_t * v_t,

  each sum over every entry. On the extended reals addition is commutative and associative with no finiteness
  assumed, so a total may be split over any partition of the index set and taken in any order.
-/
import Idealize.ShloMosaic.PureOps.Ideal.Laws
import Idealize.ShloMosaic.Lib.Pipeline.Value
import Idealize.ShloMosaic.Lib.ValueIdx

noncomputable section

open Idealize.ShloMosaic
open scoped BigOperators

namespace Cert.Dice

/-! ## One entry -/

/-- The validity mask of a target entry: the comparison `t > -1` as the number 1 or 0. -/
def mk (t : EReal) : EReal := (((Ideal.cmp .ogt t (Ideal.ofBits .f32 0xBF800000#32)).toNat : ℝ) : EReal)

/-- The masked prediction times the masked target. -/
def eII (p t : EReal) : EReal := (p * mk t) * (t * mk t)
/-- The masked prediction squared. -/
def eAA (p t : EReal) : EReal := (p * mk t) * (p * mk t)
/-- The masked target squared (the prediction plays no part). -/
def eBB (_p t : EReal) : EReal := (t * mk t) * (t * mk t)

/-- The total of an entrywise function of two arrays of one shape. -/
def tot {s : Shape} (e : EReal → EReal → EReal) (A B : s.Idx → EReal) : EReal := ∑ i, e (A i) (B i)

/-- The loss from the three totals: `1 - (2 * I + 1) / (A + B + 1)`. -/
def loss (ii aa bb : EReal) : EReal :=
  Ideal.ofBits .f32 0x3F800000#32
    - Ideal.div (Ideal.ofBits .f32 0x40000000#32 * ii + Ideal.ofBits .f32 0x3F800000#32)
        (aa + bb + Ideal.ofBits .f32 0x3F800000#32)

/-- A one-bit word widened with zeros to 32 bits and read as a signed integer is the bit itself: 0 or 1. -/
theorem toInt_setWidth_one (b : BitVec 1) : (((b.setWidth 32).toInt : ℝ) : EReal) = ((b.toNat : ℝ) : EReal) := by
  have h : (b.setWidth 32).toInt = (b.toNat : ℤ) := by revert b; decide
  rw [h, Int.cast_natCast]

/-- The mask computed by comparing, widening the bit to a 32-bit integer and converting that signed integer. -/
theorem mask_signed {s : Shape} (t : FVec Ideal s .f32) (h : 1 < 32) (i : s.Idx) :
    (sitofp .f32 (extui 32 (cmpf .ogt t (broadcast s (Scalar.ofBits .f32 0xBF800000#32))) h) : FVec Ideal s .f32) i
      = mk (t i) :=
  toInt_setWidth_one _

/-! ## Sums -/

/-- A reduction over some axes, summed over every kept index, is the total over the source: the kept indices'
    fibres partition the source's index set. -/
theorem sum_reduceAdd {s t : Shape} {axes : List (Fin s.rank)} (h : s.Reduces axes t) (x : s.Idx → EReal) :
    ∑ j, Ideal.reduceAdd h x j = ∑ i, x i := by
  unfold Ideal.reduceAdd
  exact Finset.sum_fiberwise Finset.univ (fun i => h.drop i) x

/-- A shape cast re-indexes by a bijection, so it keeps the total. -/
theorem sum_shapeCast {s t : Shape} (h : s.ShapeCasts t) (x : s.Idx → EReal) :
    ∑ j, shapeCast t x h j = ∑ i, x i :=
  Equiv.sum_comp (Shape.reshapeEquiv h) x

/-- Summing a 1024 × 512 block along its rows' entries, keeping a unit axis, then along the 1024 row sums, keeping
    a unit axis again, leaves in the one entry of the 1 × 1 result the total over the block. -/
theorem blockSum (v : FVec Ideal ⟨2, ![1024, 512]⟩ .f32)
    (h1 : (⟨2, ![1024, 512]⟩ : Shape).Reduces [1] ⟨1, ![1024]⟩)
    (c1 : (⟨1, ![1024]⟩ : Shape).ShapeCasts ⟨2, ![1024, 1]⟩)
    (h2 : (⟨2, ![1024, 1]⟩ : Shape).Reduces [0] ⟨1, ![1]⟩)
    (c2 : (⟨1, ![1]⟩ : Shape).ShapeCasts ⟨2, ![1, 1]⟩)
    (hφ : FKind.Formats .f32) (hacc : (0x00000000#32 : BitVec 32) = FKind.add.neutral .f32 hφ)
    (j : (⟨2, ![1, 1]⟩ : Shape).Idx) :
    shapeCast ⟨2, ![1, 1]⟩ (multiReduction .add [0] ⟨1, ![1]⟩
        (shapeCast ⟨2, ![1024, 1]⟩ (multiReduction .add [1] ⟨1, ![1024]⟩ v 0x00000000#32 h1 hφ hacc) c1)
        0x00000000#32 h2 hφ hacc) c2 j
      = ∑ i, v i := by
  show multiReduction .add [0] ⟨1, ![1]⟩ _ 0x00000000#32 h2 hφ hacc (Shape.reshapeEquiv c2 j) = _
  rw [Ideal.multiReduction_add_total _ _ h2 (fun b => by fin_cases b; rfl) hφ hacc, sum_shapeCast]
  exact sum_reduceAdd h1 v

end Cert.Dice

end
-- ==== Proof.PayIdeal.lean ====
/-
  The kernel's arithmetic terms read over the extended reals.

  Over one pair of 1024 × 512 blocks (a prediction block and the target block at the same rows) each update term is
  the previous one-entry contents plus the block's total of the matching product: v_p * v_t for the first running
  sum, v_p * v_p for the second, v_t * v_t for the third. A block's total is taken by the kernel as row sums along
  the 512 entries of each row and then a sum of the 1024 row sums; over the extended reals that is the total over
  the block's entries. The zero terms are 0 and the output term is the loss of the three sums.
-/
import proofs.«142630_j81956565942483_1_alg».proof.Proof.Gen.KernelIdeal.Skeleton
import proofs.«142630_j81956565942483_1_alg».proof.Proof.Spec

noncomputable section

open Idealize.ShloMosaic
open scoped BigOperators

namespace Cert.KernelIdeal.PayIdeal

open Cert.KernelIdeal Cert.KernelIdeal.Gen Cert.Dice

variable (x0 x1 : Vec Ideal S1024x512 .f32) (acc : Vec Ideal S1x1 .f32)

/-! ## Entry by entry -/

/-- The target block re-cast to its own shape is the block. -/
theorem tgt_eq : k0_pay7 (F := Ideal) x1 = x1 := by
  unfold k0_pay7
  exact shapeCast_self _ _

/-- The mask of a target block, entry by entry. -/
theorem mask_apply (i : S1024x512.Idx) : k0_pay8 (F := Ideal) x1 i = mk (x1 i) := by
  unfold k0_pay8
  rw [tgt_eq]
  exact mask_signed x1 _ i

/-- The masked prediction v_p, entry by entry. -/
theorem vp_apply (i : S1024x512.Idx) : k0_pay9 (F := Ideal) x0 x1 i = x0 i * mk (x1 i) := by
  unfold k0_pay9
  rw [shapeCast_self]
  show x0 i * k0_pay8 (F := Ideal) x1 i = _
  rw [mask_apply]

/-- The masked target v_t, entry by entry. -/
theorem vt_apply (i : S1024x512.Idx) : k0_pay10 (F := Ideal) x1 i = x1 i * mk (x1 i) := by
  unfold k0_pay10
  rw [tgt_eq]
  show x1 i * k0_pay8 (F := Ideal) x1 i = _
  rw [mask_apply]

/-! ## The three updates -/

/-- The first running sum's update: previous contents plus the block's total of v_p * v_t. -/
theorem upd_ii (j : S1x1.Idx) : k0_pay12 (F := Ideal) x0 x1 acc j = acc j + tot eII x0 x1 := by
  unfold k0_pay12
  rw [shapeCast_self]
  refine (congrArg (acc j + ·) (blockSum _ _ _ _ _ _ _ j)).trans ?_
  refine congrArg (acc j + ·) (Finset.sum_congr rfl fun i _ => ?_)
  show k0_pay9 (F := Ideal) x0 x1 i * k0_pay10 (F := Ideal) x1 i = _
  rw [vp_apply, vt_apply]
  rfl

/-- The second running sum's update: previous contents plus the block's total of v_p * v_p. -/
theorem upd_aa (j : S1x1.Idx) : k0_pay1 (F := Ideal) (k0_pay13 x0 x1 acc) j = acc j + tot eAA x0 x1 := by
  unfold k0_pay1 k0_pay13
  rw [shapeCast_self]
  refine (congrArg (acc j + ·) (blockSum _ _ _ _ _ _ _ j)).trans ?_
  refine congrArg (acc j + ·) (Finset.sum_congr rfl fun i _ => ?_)
  show k0_pay9 (F := Ideal) x0 x1 i * k0_pay9 (F := Ideal) x0 x1 i = _
  rw [vp_apply]
  rfl

/-- The third running sum's update: previous contents plus the block's total of v_t * v_t. -/
theorem upd_bb (j : S1x1.Idx) : k0_pay2 (F := Ideal) (k0_pay11 x1) acc j = acc j + tot eBB x0 x1 := by
  unfold k0_pay2 k0_pay11
  rw [shapeCast_self]
  refine (congrArg (acc j + ·) (blockSum _ _ _ _ _ _ _ j)).trans ?_
  refine congrArg (acc j + ·) (Finset.sum_congr rfl fun i _ => ?_)
  show k0_pay10 (F := Ideal) x1 i * k0_pay10 (F := Ideal) x1 i = _
  rw [vt_apply]
  rfl

/-! ## The reset and the output -/

theorem zero_ii (j : S1x1.Idx) : k0_pay4 (F := Ideal) j = 0 := Ideal.ofBits_zero_f32
theorem zero_aa (j : S1x1.Idx) : k0_pay5 (F := Ideal) j = 0 := Ideal.ofBits_zero_f32
theorem zero_bb (j : S1x1.Idx) : k0_pay6 (F := Ideal) j = 0 := Ideal.ofBits_zero_f32

/-- The output term is the loss of the three one-entry sums. -/
theorem out_apply (a b d : Vec Ideal S1x1 .f32) (j : S1x1.Idx) :
    k0_pay3 (F := Ideal) a b d j = loss (a j) (b j) (d j) := rfl

end Cert.KernelIdeal.PayIdeal

end
-- ==== Proof.Accum.lean ====
/-
  The three running sums, step by step.

  Step s of the grid reads rows 1024 s … 1024 s + 1023 of the two arrays (a prediction block and a target block).
  After step n each scratch entry holds the sum, over the steps s ≤ n, of that step's block total: the first
  step starts from zero, every later step adds to what the step before left. By induction on the step, never by
  listing the sixteen steps. At the last step the output's one entry receives the loss of the three finished sums.
-/
import proofs.«142630_j81956565942483_1_alg».proof.Proof.Pieces
import proofs.«142630_j81956565942483_1_alg».proof.Proof.PayIdeal

noncomputable section

open Idealize.ShloMosaic Idealize.ShloMosaic.TcCoe Idealize.SL.Sem
open scoped BigOperators

namespace Cert.KernelIdeal.Accum

open Cert.KernelIdeal Cert.KernelIdeal.Gen Cert.Dice

variable (m : (ℓ : Loc nD τ sig) → Buf (Elt Ideal) ℓ)

/-- The prediction block of step `t`: rows `1024 t …` of the prediction array as the kernel finds it. -/
abbrev pblk (c : Dev nD) (t : Fin cfg0.N) : Vec Ideal S1024x512 .f32 := iblk m c 0 t
/-- The target block of step `t`. -/
abbrev tblk (c : Dev nD) (t : Fin cfg0.N) : Vec Ideal S1024x512 .f32 := iblk m c 1 t

/-- The block total of an entrywise function at step `n` (nothing past the grid). -/
def part (e : EReal → EReal → EReal) (c : Dev nD) (n : ℕ) : EReal :=
  if h : n < cfg0.N then tot e (pblk m c ⟨n, h⟩) (tblk m c ⟨n, h⟩) else 0

/-- The running sum after step `n`: the block totals of steps `0 … n`. -/
def runSum (e : EReal → EReal → EReal) (c : Dev nD) (n : ℕ) : EReal := ∑ s ∈ Finset.range (n + 1), part m e c s

theorem runSum_zero (e : EReal → EReal → EReal) (c : Dev nD) (h : 0 < cfg0.N) :
    runSum m e c 0 = tot e (pblk m c ⟨0, h⟩) (tblk m c ⟨0, h⟩) := by
  unfold runSum
  rw [Finset.sum_range_one]
  unfold part
  rw [dif_pos h]

theorem runSum_succ (e : EReal → EReal → EReal) (c : Dev nD) (n : ℕ) (h : n + 1 < cfg0.N) :
    runSum m e c (n + 1) = runSum m e c n + tot e (pblk m c ⟨n + 1, h⟩) (tblk m c ⟨n + 1, h⟩) := by
  unfold runSum
  rw [Finset.sum_range_succ _ (n + 1)]
  congr 1
  unfold part
  rw [dif_pos h]

/-- After step `n` the three scratch entries hold the three running sums. -/
theorem sums_eq (c : Dev nD) : ∀ (n : ℕ) (hn : n < cfg0.N),
    (outsAt0 m c n hn).2.1 = (fun _ => runSum m eII c n)
      ∧ (outsAt0 m c n hn).2.2.1 = (fun _ => runSum m eAA c n)
      ∧ (outsAt0 m c n hn).2.2.2 = (fun _ => runSum m eBB c n)
  | 0, hn => by
    rw [outsAt0_A m c ⟨0, hn⟩ rfl (show ¬(0 : ℕ) % 16 = 15 by decide)]
    dsimp only
    refine ⟨?_, ?_, ?_⟩
    · rw [Pieces.first_ii]
      funext j
      rw [PayIdeal.upd_ii, PayIdeal.zero_ii, zero_add, runSum_zero m eII c hn]
    · rw [Pieces.first_aa]
      funext j
      rw [PayIdeal.upd_aa, PayIdeal.zero_aa, zero_add, runSum_zero m eAA c hn]
    · rw [Pieces.first_bb]
      funext j
      rw [PayIdeal.upd_bb (pblk m c ⟨0, hn⟩), PayIdeal.zero_bb, zero_add, runSum_zero m eBB c hn]
  | n + 1, hn => by
    have hN : cfg0.N = 16 := N_0
    obtain ⟨i1, i2, i3⟩ := sums_eq c n (Nat.lt_of_succ_lt hn)
    have h0 : ¬(⟨n + 1, hn⟩ : Fin cfg0.N).val % 16 = 0 := by dsimp only; omega
    by_cases h1 : (⟨n + 1, hn⟩ : Fin cfg0.N).val % 16 = 15
    · rw [outsAt0_C m c ⟨n + 1, hn⟩ h0 h1]
      dsimp only
      refine ⟨?_, ?_, ?_⟩
      · rw [Pieces.last_ii]
        funext j
        rw [PayIdeal.upd_ii, runSum_succ m eII c n hn]
        show (outsAt0 m c n _).2.1 j + _ = _
        rw [i1]
      · rw [Pieces.last_aa]
        funext j
        rw [PayIdeal.upd_aa, runSum_succ m eAA c n hn]
        show (outsAt0 m c n _).2.2.1 j + _ = _
        rw [i2]
      · rw [Pieces.last_bb]
        funext j
        rw [PayIdeal.upd_bb (pblk m c ⟨n + 1, hn⟩), runSum_succ m eBB c n hn]
        show (outsAt0 m c n _).2.2.2 j + _ = _
        rw [i3]
    · rw [outsAt0_B m c ⟨n + 1, hn⟩ h0 h1]
      dsimp only
      refine ⟨?_, ?_, ?_⟩
      · rw [Pieces.mid_ii]
        funext j
        rw [PayIdeal.upd_ii, runSum_succ m eII c n hn]
        show (outsAt0 m c n _).2.1 j + _ = _
        rw [i1]
      · rw [Pieces.mid_aa]
        funext j
        rw [PayIdeal.upd_aa, runSum_succ m eAA c n hn]
        show (outsAt0 m c n _).2.2.1 j + _ = _
        rw [i2]
      · rw [Pieces.mid_bb]
        funext j
        rw [PayIdeal.upd_bb (pblk m c ⟨n + 1, hn⟩), runSum_succ m eBB c n hn]
        show (outsAt0 m c n _).2.2.2 j + _ = _
        rw [i3]

/-- The loss the kernel writes: that of the three sums over all sixteen steps. -/
def lossAt (c : Dev nD) : EReal := loss (runSum m eII c 15) (runSum m eAA c 15) (runSum m eBB c 15)

/-- At the last step the output's staging entry receives the loss of the three finished sums. -/
theorem out_last (c : Dev nD) (h : 15 < cfg0.N) : (outsAt0 m c 15 h).1 = fun _ => lossAt m c := by
  obtain ⟨i1, i2, i3⟩ := sums_eq m c 15 h
  have e : (outsAt0 m c 15 h).1
      = k0_pay3 (outsAt0 m c 15 h).2.1 (outsAt0 m c 15 h).2.2.1 (outsAt0 m c 15 h).2.2.2 := by
    rw [outsAt0_C m c ⟨15, h⟩ (show ¬(15 : ℕ) % 16 = 0 by decide) (show (15 : ℕ) % 16 = 15 by decide)]
    dsimp only
    rw [Pieces.last_out, Pieces.last_ii, Pieces.last_aa, Pieces.last_bb]
  rw [e, i1, i2, i3]
  funext j
  exact PayIdeal.out_apply _ _ _ j

end Cert.KernelIdeal.Accum

end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.BlockTotal.lean ====
/-
  Sixteen consecutive blocks of 1024 rows tile a 16384 × 512 array, so the block totals add up to the total over
  the array; and a reshape keeps a total. Both hold on the extended reals with no finiteness assumed: only
  commutativity and associativity of addition are used.
-/
import proofs.«142630_j81956565942483_1_alg».proof.Proof.Spec
import proofs.«142630_j81956565942483_1_alg».proof.Proof.LibBlockSum

noncomputable section

open Idealize.ShloMosaic Idealize.ShloMosaic.ValueIdx
open scoped BigOperators

namespace Cert.Dice

/-- Entry `y` of the block of rows `1024 s … 1024 s + 1023`, as an entry of the whole array: row
    `1024 s + y₀`, column `y₁`. -/
def rowsAt (s : ℕ) (hs : s < 16) (y : (⟨2, ![1024, 512]⟩ : Shape).Idx) : (⟨2, ![16384, 512]⟩ : Shape).Idx :=
  ix2 ⟨1024 * s + (y 0).val, by have := idx2_lt0 y; omega⟩ (y 1)

/-- The totals of the sixteen row blocks add up to the total over the array. -/
theorem total_by_blocks (e : EReal → EReal → EReal) (A B : (⟨2, ![16384, 512]⟩ : Shape).Idx → EReal) :
    ∑ s ∈ Finset.range 16, (if h : s < 16 then
        ∑ y : (⟨2, ![1024, 512]⟩ : Shape).Idx, e (A (rowsAt s h y)) (B (rowsAt s h y)) else 0)
      = tot e A B := by
  unfold tot
  rw [sum_idx2 (fun k => e (A k) (B k)),
    Cert.LibBlockSum.sum_fin_blocks 16 1024 rfl (fun R : Fin 16384 => ∑ b : Fin 512, e (A (ix2 R b)) (B (ix2 R b)))]
  refine Finset.sum_congr rfl fun s hs => ?_
  have hs' : s < 16 := Finset.mem_range.mp hs
  rw [dif_pos hs', sum_idx2]
  refine Finset.sum_congr rfl fun r _ => ?_
  have hr : 1024 * s + r.val < 16384 := by have := r.isLt; omega
  rw [dif_pos hr]
  rfl

/-- A reshape of both arrays keeps the total of an entrywise function. -/
theorem tot_shapeCast {s t : Shape} (h : s.ShapeCasts t) (e : EReal → EReal → EReal) (A B : s.Idx → EReal) :
    tot e (shapeCast t A h) (shapeCast t B h) = tot e A B :=
  Equiv.sum_comp (Shape.reshapeEquiv h) (fun i => e (A i) (B i))

/-- The dice loss of two arrays of one shape. -/
def dice {s : Shape} (A B : s.Idx → EReal) : EReal := loss (tot eII A B) (tot eAA A B) (tot eBB A B)

/-- A reshape of both arrays keeps the loss. -/
theorem dice_shapeCast {s t : Shape} (h : s.ShapeCasts t) (A B : s.Idx → EReal) :
    dice (shapeCast t A h) (shapeCast t B h) = dice A B := by
  unfold dice
  rw [tot_shapeCast, tot_shapeCast, tot_shapeCast]

end Cert.Dice

end
-- ==== Proof.KernelValue.lean ====
/-
  What the kernel program computes: its scalar result is the dice loss of its two argument arrays.

  The two arguments are reshaped to 16384 × 512 before the grid runs; step s reads rows 1024 s … 1024 s + 1023 of
  each, so the sixteen block totals add up to the totals over the reshaped arrays, and a reshape keeps a total. The
  output's one entry is written back once, after the last step, and the scalar result is that entry reshaped to
  rank 0.
-/
import proofs.«142630_j81956565942483_1_alg».proof.Proof.Accum
import proofs.«142630_j81956565942483_1_alg».proof.Proof.BlockTotal
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)
open scoped BigOperators

namespace Cert.KernelIdeal.KValue

open Cert.KernelIdeal Cert.KernelIdeal.Gen Cert.Dice Cert.KernelIdeal.Accum

variable (m : (ℓ : Loc nD τ sig) → Buf (Elt Ideal) ℓ) (ρ : Dev nD → PrngReg)

/-! ## The blocks are the rows of the reshaped arguments -/

/-- Step `t` reads block `(t, 0)` of the prediction array, -/
theorem pidx : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- and block `(t, 0)` of the target array. -/
theorem tidx : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The reshaped prediction array, as the grid finds it. -/
abbrev parr (c : Dev nD) : Vec Ideal S16384x512 .f32 := V m c main_v0
/-- The reshaped target array. -/
abbrev tarr (c : Dev nD) : Vec Ideal S16384x512 .f32 := V m c main_v1

theorem pblk_apply (c : Dev nD) (s : ℕ) (h : s < cfg0.N) (hs : s < 16) (y : S1024x512.Idx) :
    pblk m c ⟨s, h⟩ y = parr m c (rowsAt s hs y) := by
  show iblk m c 0 ⟨s, h⟩ y = V m c main_v0 (rowsAt s hs y)
  unfold iblk
  rw [View.read_apply]
  show V m c main_v0 _ = V m c main_v0 _
  congr 1
  funext a
  apply Fin.ext
  match a with
  | ⟨0, _⟩ =>
    show win0_0.index ⟨s, h⟩ 0 * 1024 + 1 * (y 0).val = 1024 * s + (y 0).val
    have e : win0_0.index ⟨s, h⟩ 0 = s := (pidx ⟨s, h⟩).1
    rw [e]; omega
  | ⟨1, _⟩ =>
    show win0_0.index ⟨s, h⟩ 1 * 512 + 1 * (y 1).val = (y 1).val
    have e : win0_0.index ⟨s, h⟩ 1 = 0 := (pidx ⟨s, h⟩).2
    rw [e]; omega

theorem tblk_apply (c : Dev nD) (s : ℕ) (h : s < cfg0.N) (hs : s < 16) (y : S1024x512.Idx) :
    tblk m c ⟨s, h⟩ y = tarr m c (rowsAt s hs y) := by
  show iblk m c 1 ⟨s, h⟩ y = V m c main_v1 (rowsAt s hs y)
  unfold iblk
  rw [View.read_apply]
  show V m c main_v1 _ = V m c main_v1 _
  congr 1
  funext a
  apply Fin.ext
  match a with
  | ⟨0, _⟩ =>
    show win0_1.index ⟨s, h⟩ 0 * 1024 + 1 * (y 0).val = 1024 * s + (y 0).val
    have e : win0_1.index ⟨s, h⟩ 0 = s := (tidx ⟨s, h⟩).1
    rw [e]; omega
  | ⟨1, _⟩ =>
    show win0_1.index ⟨s, h⟩ 1 * 512 + 1 * (y 1).val = (y 1).val
    have e : win0_1.index ⟨s, h⟩ 1 = 0 := (tidx ⟨s, h⟩).2
    rw [e]; omega

/-- The sum of the sixteen block totals is the total over the reshaped arrays. -/
theorem runSum_total (e : EReal → EReal → EReal) (c : Dev nD) :
    runSum m e c 15 = tot (s := S16384x512) e (parr m c) (tarr m c) := by
  rw [← total_by_blocks e (parr m c) (tarr m c)]
  unfold runSum
  refine Finset.sum_congr rfl fun s hs => ?_
  have hs' : s < 16 := Finset.mem_range.mp hs
  have h : s < cfg0.N := by rw [show cfg0.N = 16 from N_0]; exact hs'
  unfold part
  rw [dif_pos h, dif_pos hs']
  unfold tot
  refine Finset.sum_congr rfl fun y _ => ?_
  rw [pblk_apply m c s h hs', tblk_apply m c s h hs']

/-- The host reshapes the prediction argument before the grid runs, -/
theorem parr_eq (c : Dev nD) :
    parr m c = shapeCast S16384x512 (m ((c : Thread nD τ).loc main_arg0)) Facts₀.shapeCasts_S32x1x512x512_S16384x512 := by
  show StableHlo.after hostOps0 (fun b => m (c, b)) (Proc.devRef .tc main_v0) = _
  after_results
  rfl
/-- and the target argument. -/
theorem tarr_eq (c : Dev nD) :
    tarr m c = shapeCast S16384x512 (m ((c : Thread nD τ).loc main_arg1)) Facts₀.shapeCasts_S32x1x512x512_S16384x512 := by
  show StableHlo.after hostOps0 (fun b => m (c, b)) (Proc.devRef .tc main_v1) = _
  after_results
  rfl

/-- The loss the kernel writes is the dice loss of the two arguments. -/
theorem lossAt_eq (c : Dev nD) :
    lossAt m c = dice (s := S32x1x512x512) (m ((c : Thread nD τ).loc main_arg0)) (m ((c : Thread nD τ).loc main_arg1)) := by
  unfold lossAt
  rw [runSum_total, runSum_total, runSum_total, parr_eq, tarr_eq]
  exact dice_shapeCast _ _ _

/-! ## The one write-back and the result -/

theorem h15 : 15 < cfg0.N := by rw [show cfg0.N = 16 from N_0]; decide

/-- The region's result array: its one entry is the loss. -/
abbrev result (c : Dev nD) : Buf (Elt Ideal) ((c : Thread nD τ).loc main_v2) := fun _ => lossAt m c

/-- The only write-back is after the last step, and it writes the loss. -/
theorem flushed_eq (c : Dev nD) (t : Fin cfg0.N) (hf : (cfg0.win 2).flush t = true) :
    (dats m 0 c).flushed 2 t = ((cfg0.win 2).blk t).view.read (Elt Ideal) (result m c) := by
  have hN : cfg0.N = 16 := N_0
  have ht : t.val = 15 := by have := (flush0_2 t).mp hf; have := t.isLt; omega
  obtain rfl : t = ⟨15, h15⟩ := Fin.ext ht
  show (cfg0.win 2).cut (grid0.coords ⟨15, h15⟩) ((dats m 0 c).after 2 ⟨15, h15⟩) = _
  rw [after0_2, out_last]
  rfl

/-- So the region's result array ends holding the loss: the last step's block is the whole 1 × 1 array. -/
theorem final_o (c : Dev nD) : (dats m 0 c).arrAt 2 cfg0.N = result m c :=
  (dats m 0 c).arrAt_eq_of_cover 2 (result m c) (flushed_eq m c) fun i =>
    ⟨⟨15, h15⟩, (flush0_2 ⟨15, h15⟩).mpr rfl, by
      show i ∈ ((View.whole main_v2).slice (win0_2.rect ⟨15, h15⟩)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index ⟨15, h15⟩ 0 * win0_2.size 0 ≤ (i 0 : Nat) ∧ (i 0 : Nat) < win0_2.index ⟨15, h15⟩ 0 * win0_2.size 0 + win0_2.xsize (grid0.coords ⟨15, h15⟩) 0
        rw [show win0_2.index ⟨15, h15⟩ 0 * win0_2.size 0 = 0 from by decide +kernel, show win0_2.xsize (grid0.coords ⟨15, h15⟩) 0 = 1 from by decide +kernel]; omega
      | ⟨1, _⟩ =>
        show win0_2.index ⟨15, h15⟩ 1 * win0_2.size 1 ≤ (i 1 : Nat) ∧ (i 1 : Nat) < win0_2.index ⟨15, h15⟩ 1 * win0_2.size 1 + win0_2.xsize (grid0.coords ⟨15, h15⟩) 1
        rw [show win0_2.index ⟨15, h15⟩ 1 * win0_2.size 1 = 0 from by decide +kernel, show win0_2.xsize (grid0.coords ⟨15, h15⟩) 1 = 1 from by decide +kernel]; omega⟩

/-- The scalar result: the host reshapes the region's 1 × 1 result to rank 0 after the grid. -/
theorem tail_eq (c : Dev nD) :
    Pipeline.afterTail₀ cfgs (dats m) 0 (V0 m) [hostOps1] c main_v3 = fun _ => lossAt m c := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = result m c :=
    (Pipeline.withArrays_arr spec0 launch0.win.arr_inj c _ _ 2).trans (final_o m c)
  rw [e]
  rfl

/-! ## The run -/

/-- Every weakly fair execution of the kernel program ends with its scalar result at the dice loss of the two
    arguments, and the arguments unchanged. -/
theorem run : θ_run defs (onTc (τ := τ) (main (F := Ideal))) ⟨m, fun _ => 0, ρ⟩ fun r => ∀ c : Dev nD,
      r.2.mem ((c.tc : Thread nD τ).loc main_v3)
          = (fun _ => dice (s := S32x1x512x512) (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((tail_eq m c).trans (by rw [lossAt_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  What the reference program computes: the dice loss of its two argument arrays.

  The reference flattens both arguments to 8388608 entries, takes the three totals each as ONE sum starting from
  zero, and forms `1 - (2 * I + 1) / (A + B + 1)`. Its mask is the comparison bit converted as an unsigned
  integer, which is the same 0 or 1. A reshape keeps a total, so the result is the loss of the arguments themselves.
-/
import proofs.«142630_j81956565942483_1_alg».proof.Proof.Gen.ReferenceIdeal.Run
import proofs.«142630_j81956565942483_1_alg».proof.Proof.BlockTotal

noncomputable section

open Idealize.ShloMosaic
open scoped BigOperators

namespace Cert.ReferenceIdeal.RefValue

open Cert.ReferenceIdeal Cert.ReferenceIdeal.Gen Cert.Dice

/-- The reference's mask of the flattened target. -/
abbrev maskR (T : FVec Ideal S8388608 .f32) : FVec Ideal S8388608 .f32 :=
  uitofp .f32 (cmpf .ogt T (broadcastInDim S8388608 ![] bcast_S_S8388608 (constant S_ .f32 0xBF800000#32)))

/-- The reference's sum of a flat array, from zero. -/
abbrev sumR (X : FVec Ideal S8388608 .f32) : FVec Ideal S_ .f32 :=
  Host.reduceAdd X (constant S_ .f32 0x00000000#32) reducesTo_S8388608_S_d0 h_S_

/-- Over the extended reals that sum is the total over the entries. -/
theorem sumR_apply (X : FVec Ideal S8388608 .f32) (j : S_.Idx) : sumR X j = ∑ i, X i := by
  show Ideal.hostReduceAdd reducesTo_S8388608_S_d0 X (Ideal.ofBits .f32 0x00000000#32) j = _
  rw [Ideal.hostReduceAdd_total _ (fun b => b.elim0), Ideal.ofBits_zero_f32, zero_add]

/-- The reference's closing arithmetic on three rank-0 values is the loss of the three. -/
theorem loss_of (a b d : FVec Ideal S_ .f32) (j : S_.Idx) :
    subf (constant S_ .f32 0x3F800000#32)
        (Host.divf (addf (mulf (constant S_ .f32 0x40000000#32) a) (constant S_ .f32 0x3F800000#32))
          (addf (addf b d) (constant S_ .f32 0x3F800000#32))) j
      = loss (a j) (b j) (d j) := rfl

/-- The reference's result term, of the two flattened arguments, is their dice loss. -/
theorem flat_eq (P T : FVec Ideal S8388608 .f32) :
    subf (constant S_ .f32 0x3F800000#32)
        (Host.divf
          (addf (mulf (constant S_ .f32 0x40000000#32) (sumR (mulf (mulf P (maskR T)) (mulf T (maskR T)))))
            (constant S_ .f32 0x3F800000#32))
          (addf (addf (sumR (mulf (mulf P (maskR T)) (mulf P (maskR T)))) (sumR (mulf (mulf T (maskR T)) (mulf T (maskR T)))))
            (constant S_ .f32 0x3F800000#32)))
      = fun _ => dice P T := by
  funext j
  rw [loss_of, sumR_apply, sumR_apply, sumR_apply]
  unfold dice tot
  congr 1 <;> exact Finset.sum_congr rfl fun i _ => rfl

/-- The same of the arguments themselves: flattening keeps the loss. -/
theorem result_eq (a0 a1 : FVec Ideal S32x1x512x512 .f32) :
    (fun _ : S_.Idx => dice (shapeCast S8388608 a0 shapeCasts_S32x1x512x512_S8388608)
        (shapeCast S8388608 a1 shapeCasts_S32x1x512x512_S8388608))
      = fun _ => dice a0 a1 := by
  rw [dice_shapeCast]

end Cert.ReferenceIdeal.RefValue

end
-- ==== Proof.lean ====
/-
  The kernel and its reference compute one function: the masked dice loss of a prediction array and a target array,

      1 - (2 * I + 1) / (A + B + 1),

  where, with the mask 1 on the entries whose target exceeds -1 and 0 elsewhere, v_p = prediction * mask and
  v_t = target * mask, I is the sum of v_p * v_t, A the sum of v_p * v_p and B the sum of v_t * v_t over all entries.

  The reference flattens the arrays and takes each sum at once. The kernel reshapes them to 16384 rows of 512,
  walks sixteen blocks of 1024 rows, adds each block's three totals (a sum along each row, then a sum of the row
  sums) into three one-entry running sums that start from zero, and forms the loss from them after the last block.
  Over the extended reals addition is commutative and associative with no finiteness needed, so the sixteen block
  totals add up to the total over the array and a reshape keeps a total: the two results are the same extended
  real, and the precondition is never opened. The two masks (the comparison bit widened and converted as a signed
  integer in the kernel, converted as an unsigned one in the reference) are the same number 0 or 1, and the closing
  arithmetic is the same expression of the same constants on both sides.

  The three frames are the generated ones (the reference's is its generated run with the result dropped); the
  idealization rewrote nothing, so `preserves` is trivial.
-/
import proofs.«142630_j81956565942483_1_alg».proof.Defs
import proofs.«142630_j81956565942483_1_alg».proof.Proof.Gen.Kernel
import proofs.«142630_j81956565942483_1_alg».proof.Proof.Gen.Kernel.Skeleton
import proofs.«142630_j81956565942483_1_alg».proof.Proof.Gen.Kernel.Launch
import proofs.«142630_j81956565942483_1_alg».proof.Proof.Gen.Kernel.Points
import proofs.«142630_j81956565942483_1_alg».proof.Proof.Gen.Kernel.Frame
import proofs.«142630_j81956565942483_1_alg».proof.Proof.Gen.KernelIdeal
import proofs.«142630_j81956565942483_1_alg».proof.Proof.Gen.KernelIdeal.Skeleton
import proofs.«142630_j81956565942483_1_alg».proof.Proof.Gen.KernelIdeal.Launch
import proofs.«142630_j81956565942483_1_alg».proof.Proof.Gen.KernelIdeal.Points
import proofs.«142630_j81956565942483_1_alg».proof.Proof.Gen.KernelIdeal.Frame
import proofs.«142630_j81956565942483_1_alg».proof.Proof.Gen.ReferenceIdeal
import proofs.«142630_j81956565942483_1_alg».proof.Proof.Gen.Pre_finite_inputs
import proofs.«142630_j81956565942483_1_alg».proof.Proof.Gen.ReferenceIdeal.Run
import proofs.«142630_j81956565942483_1_alg».proof.Proof.KernelValue
import proofs.«142630_j81956565942483_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their scalar result at the dice loss of the (agreeing) arguments. -/
theorem algebraic : Cert.algebraic_KernelIdeal_ReferenceIdeal := by
  intro m ρ m' ρ' _ hagree
  refine ⟨fun c => fun _ => Cert.Dice.dice (s := Cert.KernelIdeal.S32x1x512x512)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.RefValue.flat_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
